-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one grid point leaves behind, case by case.

  The body keeps a 1024 × 1024 accumulator in scratch across the eight K-steps of an output tile. At a point it
    * (first K-step only) overwrites the accumulator with zeros,
    * replaces the accumulator by  accumulator + a · bᵀ  for the point's 1024 × 512 blocks a of x and b of w,
    * (last K-step only) writes  accumulator + bias row  into the output tile.
  Read back as values, with "step" the second line and "emit" the third:
    first K-step :  scratch = step a b zeros
    middle       :  scratch = step a b (what the point before left)
    last K-step  :  scratch = step a b (what the point before left),  output tile = emit (that scratch) bias
  Each statement holds for every float instance; the value proof reads them at the extended reals.
-/
import proofs.«152821_j16844861735163_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- One K-step: the accumulator plus the product of the two blocks (contracted over their 512 columns). -/
abbrev step (a b : Vec F S1024x512 .f32) (acc : Vec F S1024x1024 .f32) : Vec F S1024x1024 .f32 := k0_pay2 a b acc

/-- The accumulator's reset value. -/
abbrev zeros : Vec F S1024x1024 .f32 := k0_pay1

/-- The output tile: the finished accumulator plus the bias row on every row. -/
abbrev emit (acc : Vec F S1024x1024 .f32) (bias : Vec F S1x1024 .f32) : Vec F S1024x1024 .f32 := k0_pay3 acc bias

/-- First K-step: the scratch is reset and then stepped once, whatever it held before. -/
theorem scratch_first (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x512 .f32) (x2 : Vec F S1x1024 .f32) :
    sout0_A_0 c i a3 h3 a4 h4 a5 h5 a6 h6 a7 h7 hc0 hc1 x0 x1 x2 = step x0 x1 zeros := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x512) origin]

/-- A middle K-step: the scratch is what the point before left, stepped once. -/
theorem scratch_middle (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x512 .f32) (x2 : Vec F S1x1024 .f32) (acc : Vec F S1024x1024 .f32) :
    sout0_B_0 c i a3 h3 a4 h4 a5 h5 a6 h6 a7 h7 hc0 hc1 x0 x1 x2 acc = step x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero origin]
  simp only [View.readAt_eq_ld, h3.read_unread, h4.read_unread, h7.read_unread, View.ld_unit_zero (S := S1024x512) origin,
    View.ld_unit_zero (S := S1024x1024) origin]

/-- The last K-step steps the scratch the same way … -/
theorem scratch_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x512 .f32) (x2 : Vec F S1x1024 .f32) (acc : Vec F S1024x1024 .f32) :
    sout0_C_0 c i a3 h3 a4 h4 a5 h5 a6 h6 a7 h7 hc0 hc1 x0 x1 x2 acc = step x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h7.read_unread, View.ld_unit_zero (S := S1024x512) origin,
    View.ld_unit_zero (S := S1024x1024) origin]

/-- … and writes the output tile from the stepped scratch, which it reads back, and the bias row. -/
theorem tile_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x512 .f32) (x2 : Vec F S1x1024 .f32) (acc : Vec F S1024x1024 .f32) :
    out0_C_3 c i a3 h3 a4 h4 a5 h5 a6 h6 a7 h7 hc0 hc1 x0 x1 x2 acc = emit (step x0 x1 acc) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h5.read_unread, h7.read_unread,
    View.readCov_unit_zero (S := S1024x1024) _ origin, View.ld_unit_zero (S := S1024x512) origin,
    View.ld_unit_zero (S := S1024x1024) origin, View.ld_unit_zero (S := S1x1024) origin]

end Cert.KernelIdeal.Acc

end
-- ==== Proof.StepAt.lean ====
/-
  One K-step, the reset value and the output tile, entry by entry over the extended reals.

  With a and b the point's 1024 × 512 blocks of x and w and acc the accumulator:
      zeros[p, q]            = 0
      (step a b acc)[p, q]   = acc[p, q] + Σ_{kk<512} a[p, kk] · b[q, kk]
      (emit acc bias)[p, q]  = acc[p, q] + bias[0, q]
  The narrowing of a and b to bf16 before the product is the identity on extended reals, the product into a zero
  accumulator is the plain sum of products over the contracted column index, and the bias row is repeated on every row.
-/
import proofs.«152821_j16844861735163_1_alg».proof.Proof.Pieces
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

/-! ## Where the product reads its operands: row p of a, row q of b, the same column of both -/

theorem lhs_axis0 (i : S1024x1024.Idx) (k : dot_S1024x512_S1024x512_S1024x1024_1_1_0_0_n_n.contr.Idx) : (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

theorem lhs_axis1 (i : S1024x1024.Idx) (k : dot_S1024x512_S1024x512_S1024x1024_1_1_0_0_n_n.contr.Idx) : (dot_S1024x512_S1024x512_S1024x1024_1_1_0_0_n_n.lhsIdx i k 1).val = (k ⟨0, by decide⟩).val :=
  dot_S1024x512_S1024x512_S1024x1024_1_1_0_0_n_n.lhsIdx_val_of_single rfl i k

theorem rhs_axis0 (i : S1024x1024.Idx) (k : dot_S1024x512_S1024x512_S1024x1024_1_1_0_0_n_n.contr.Idx) : (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

theorem rhs_axis1 (i : S1024x1024.Idx) (k : dot_S1024x512_S1024x512_S1024x1024_1_1_0_0_n_n.contr.Idx) : (dot_S1024x512_S1024x512_S1024x1024_1_1_0_0_n_n.rhsIdx i k 1).val = (k ⟨0, by decide⟩).val :=
  dot_S1024x512_S1024x512_S1024x1024_1_1_0_0_n_n.rhsIdx_val_of_single rfl i k

/-- The block product a · bᵀ at (p, q): the sum over the 512 shared columns. -/
theorem product_apply {φ₁ φ₂ : FTy} (a : FVec Ideal S1024x512 φ₁) (b : FVec Ideal S1024x512 φ₂) (p q : Fin 1024) :
    matmul dot_S1024x512_S1024x512_S1024x1024_1_1_0_0_n_n none a b (constant S1024x1024 .f32 0x00000000#32) (ix2 p q)
      = ∑ kk : Fin 512, a (ix2 p kk) * b (ix2 q kk) := by
  simp only [matmul]
  rw [Ideal.matmul_constant_zero_apply, ← Equiv.sum_comp (contrEquiv1 dot_S1024x512_S1024x512_S1024x1024_1_1_0_0_n_n 512 rfl rfl).symm]
  refine Finset.sum_congr rfl fun kk _ => ?_
  have hk := contrEquiv1_symm_val dot_S1024x512_S1024x512_S1024x1024_1_1_0_0_n_n 512 rfl rfl kk
  have el : dot_S1024x512_S1024x512_S1024x1024_1_1_0_0_n_n.lhsIdx (ix2 p q) ((contrEquiv1 dot_S1024x512_S1024x512_S1024x1024_1_1_0_0_n_n 512 rfl rfl).symm kk) = ix2 p kk := funext fun d => Fin.ext (by
    match d with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm kk) = ix2 q kk := funext fun d => Fin.ext (by
    match d with
    | ⟨0, _⟩ => exact rhs_axis0 _ _
    | ⟨1, _⟩ => exact (rhs_axis1 _ _).trans hk)
  rw [el, er]

/-! ## The three payloads at an entry -/

/-- The reset value is zero everywhere. -/
theorem zeros_apply (j : S1024x1024.Idx) : zeros (F := Ideal) j = 0 := by
  unfold zeros k0_pay1
  refine (congrFun (shapeCast_self _ _) j).trans ?_
  exact Ideal.ofBits_zero_f32

/-- One K-step adds, at (p, q), the products of row p of a with row q of b. -/
theorem step_apply (a b : Vec Ideal S1024x512 .f32) (acc : Vec Ideal S1024x1024 .f32) (p q : Fin 1024) :
    step a b acc (ix2 p q) = acc (ix2 p q) + ∑ kk : Fin 512, a (ix2 p kk) * b (ix2 q kk) := by
  unfold step k0_pay2
  refine (congrFun (shapeCast_self _ _) (ix2 p q)).trans ?_
  exact congrArg (acc (ix2 p q) + ·) (product_apply _ _ p q)

/-- The output tile adds the bias row's entry q on every row p. -/
theorem emit_apply (acc : Vec Ideal S1024x1024 .f32) (bias : Vec Ideal S1x1024 .f32) (p q : Fin 1024) :
    emit acc bias (ix2 p q) = acc (ix2 p q) + bias (ix2 (0 : Fin 1) q) := by
  unfold emit k0_pay3
  refine congrArg (acc (ix2 p q) + ·) ?_
  refine (broadcastTo_apply _ _ (ix2 p q) (ix2 (0 : Fin 1) q) (fun d => match d with
    | ⟨0, _⟩ => by show 0 = if (1 : Nat) = 1 then 0 else _; rw [if_pos rfl]
    | ⟨1, _⟩ => by show q.val = if (1024 : Nat) = 1 then 0 else q.val; rw [if_neg (by decide)])).trans ?_
  exact congrFun (shapeCast_self _ _) _

end Cert.KernelIdeal.Acc

end
-- ==== Proof.DenseSpec.lean ====
/-
  The function both programs compute, and the one law that joins them.

  For 4096 × 4096 arrays x and w and a vector b of length 4096 the dense layer is
      y[r, c] = Σ_k x[r, k] · w[c, k] + b[c]        (k over all 4096 columns).
  A K-blocked accumulation adds the same products in eight stretches of 512 columns, starting from zero:
      y[r, c] = (0 + Σ_{s<8} Σ_{kk<512} x[r, 512 s + kk] · w[c, 512 s + kk]) + b[c].
  The two agree because a finite sum over 4096 = 8 · 512 consecutive indices can be regrouped stretch by stretch,
  which needs only that addition of extended reals is commutative and associative: no entry has to be finite.
-/
import Idealize.ShloMosaic.PureOps.Ideal
import Idealize.ShloMosaic.Lib.ValueIdx

noncomputable section

open scoped BigOperators

namespace Cert.DenseSpec

open Idealize.ShloMosaic Idealize.ShloMosaic.ValueIdx

/-- The shape of x, w and y. -/
abbrev Mat : Shape := ⟨2, ![4096, 4096]⟩
/-- The shape of b. -/
abbrev Row : Shape := ⟨1, ![4096]⟩

/-- Entry (r, k) of a 4096 × 4096 array, addressed by natural numbers; zero outside the array. -/
def at2 (x : Mat.Idx → EReal) (r k : ℕ) : EReal :=
  if h : r < 4096 ∧ k < 4096 then x (ix2 ⟨r, h.1⟩ ⟨k, h.2⟩) else 0

/-- Inside the array the natural-number address is the entry itself. -/
theorem at2_ix2 (x : Mat.Idx → EReal) (r k : Fin 4096) : at2 x r.val k.val = x (ix2 r k) := by
  unfold at2
  rw [dif_pos ⟨r.isLt, k.isLt⟩]

/-- Entry c of a vector of length 4096, addressed by a natural number; zero outside. -/
def at1 (b : Row.Idx → EReal) (c : ℕ) : EReal :=
  if h : c < 4096 then b (ix1 ⟨c, h⟩) else 0

theorem at1_ix1 (b : Row.Idx → EReal) (c : Fin 4096) : at1 b c.val = b (ix1 c) := by
  unfold at1
  rw [dif_pos c.isLt]

/-- y[r, c] = Σ_k x[r, k] · w[c, k] + b[c]. -/
def denseAt (x w : Mat.Idx → EReal) (b : Row.Idx → EReal) (r c : Fin 4096) : EReal :=
  (∑ k : Fin 4096, x (ix2 r k) * w (ix2 c k)) + b (ix1 c)

/-- The dense layer as one function of the three arrays. -/
def dense (x w : Mat.Idx → EReal) (b : Row.Idx → EReal) : Mat.Idx → EReal :=
  fun j => denseAt x w b (j 0) (j 1)

/-- A sum over 4096 consecutive naturals, regrouped as eight stretches of 512: index k is 512 · (k / 512) + k % 512. -/
theorem sum_4096_eq_stretches (g : ℕ → EReal) :
    ∑ k : Fin 4096, g k.val = ∑ s ∈ Finset.range 8, ∑ kk : Fin 512, g (512 * s + kk.val) := by
  rw [← Fin.sum_univ_eq_sum_range (fun s => ∑ kk : Fin 512, g (512 * s + kk.val)) 8]
  have h := Equiv.sum_comp (finProdFinEquiv (m := 8) (n := 512)) (fun k : Fin (8 * 512) => g k.val)
  rw [Fintype.sum_prod_type] at h
  exact h.symm.trans (Finset.sum_congr rfl fun a _ => Finset.sum_congr rfl fun q _ =>
    congrArg g ((finProdFinEquiv_apply_val (a, q)).trans (Nat.add_comm _ _)))

/-- The dense layer at (r, c) is the accumulation of the eight stretches from zero, plus the bias. -/
theorem denseAt_eq_stretches (x w : Mat.Idx → EReal) (b : Row.Idx → EReal) (r c : Fin 4096) :
    denseAt x w b r c
      = (0 + ∑ s ∈ Finset.range 8, ∑ kk : Fin 512, at2 x r.val (512 * s + kk.val) * at2 w c.val (512 * s + kk.val))
        + at1 b c.val := by
  unfold denseAt
  rw [zero_add, at1_ix1, ← sum_4096_eq_stretches (fun k => at2 x r.val k * at2 w c.val k)]
  exact congrArg (· + b (ix1 c)) (Finset.sum_congr rfl fun k _ => by rw [at2_ix2, at2_ix2])

end Cert.DenseSpec

end
-- ==== Proof.Blocks.lean ====
/-
  The blocks a grid point works on, as entries of the whole arrays.

  The 128 grid points are numbered t = 32·i + 8·j + k over the tile row i < 4, the tile column j < 4 and the K-step
  k < 8, so i = t / 32, j = (t / 8) % 4 and k = t % 8. At point t the body is handed
      the x block   a[p, kk] = x[1024·i + p, 512·k + kk]        (p < 1024, kk < 512),
      the w block   b[q, kk] = w[1024·j + q, 512·k + kk]        (q < 1024),
      the bias row  r[0, q]  = bias[1024·j + q],
  the last through the bias vector laid out as one row of 4096 before the kernel starts.
-/
import proofs.«152821_j16844861735163_1_alg».proof.Proof.DenseSpec
import proofs.«152821_j16844861735163_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Cert.DenseSpec (at2 at1)

namespace Cert.KernelIdeal.Acc

open Cert.KernelIdeal Cert.KernelIdeal.Gen

variable (m : (ℓ : Loc nD τ sig) → Buf (Elt Ideal) ℓ)

/-- The three argument arrays as the launch finds them. -/
abbrev xin (c : Dev nD) : Vec Ideal S4096x4096 .f32 := m ((c : Thread nD τ).loc main_arg0)
abbrev win (c : Dev nD) : Vec Ideal S4096x4096 .f32 := m ((c : Thread nD τ).loc main_arg1)
abbrev bin (c : Dev nD) : Vec Ideal S4096 .f32 := m ((c : Thread nD τ).loc main_arg2)

/-- The three blocks the body is handed at point t. -/
abbrev xblk (c : Dev nD) (t : Fin cfg0.N) : Vec Ideal S1024x512 .f32 := iblk m c 0 t
abbrev wblk (c : Dev nD) (t : Fin cfg0.N) : Vec Ideal S1024x512 .f32 := iblk m c 1 t
abbrev bblk (c : Dev nD) (t : Fin cfg0.N) : Vec Ideal S1x1024 .f32 := iblk m c 2 t

/-- Which block of each array point t = 32 i + 8 j + k addresses: x at (i, k), w at (j, k), the bias row at (0, j). -/
theorem block_indices : ∀ t : Fin cfg0.N,
    (win0_0.index t 0 = t.val / 32 ∧ win0_0.index t 1 = t.val % 8)
    ∧ (win0_1.index t 0 = t.val / 8 % 4 ∧ win0_1.index t 1 = t.val % 8)
    ∧ (win0_2.index t 0 = 0 ∧ win0_2.index t 1 = t.val / 8 % 4) :=
  (by decide +kernel : ∀ t : Fin grid0.N,
    (win0_0.index t 0 = t.val / 32 ∧ win0_0.index t 1 = t.val % 8)
    ∧ (win0_1.index t 0 = t.val / 8 % 4 ∧ win0_1.index t 1 = t.val % 8)
    ∧ (win0_2.index t 0 = 0 ∧ win0_2.index t 1 = t.val / 8 % 4))

/-- The x block at point t reads rows 1024·(t/32) + p and columns 512·(t%8) + kk of x. -/
theorem xblk_apply (c : Dev nD) (t : Fin cfg0.N) (p : Fin 1024) (kk : Fin 512) :
    xblk m c t (ix2 p kk) = at2 (xin m c) (1024 * (t.val / 32) + p.val) (512 * (t.val % 8) + kk.val) := by
  have hN : t.val < 128 := lt_of_lt_of_eq t.isLt N_0
  have hp := p.isLt
  have hk := kk.isLt
  obtain ⟨⟨h0, h1⟩, -, -⟩ := block_indices t
  unfold at2
  rw [dif_pos ⟨by omega, by omega⟩]
  show iblk m c 0 t (ix2 p kk) = _
  unfold iblk
  rw [View.read_apply]
  show V m c main_arg0 _ = _
  rw [V_main_arg0]
  refine congrArg (m ((c : Thread nD τ).loc main_arg0)) (funext fun d => Fin.ext ?_)
  match d with
  | ⟨0, _⟩ => show win0_0.index t 0 * 1024 + 1 * p.val = 1024 * (t.val / 32) + p.val; rw [h0]; omega
  | ⟨1, _⟩ => show win0_0.index t 1 * 512 + 1 * kk.val = 512 * (t.val % 8) + kk.val; rw [h1]; omega

/-- The w block at point t reads rows 1024·((t/8)%4) + q and columns 512·(t%8) + kk of w. -/
theorem wblk_apply (c : Dev nD) (t : Fin cfg0.N) (q : Fin 1024) (kk : Fin 512) :
    wblk m c t (ix2 q kk) = at2 (win m c) (1024 * (t.val / 8 % 4) + q.val) (512 * (t.val % 8) + kk.val) := by
  have hN : t.val < 128 := lt_of_lt_of_eq t.isLt N_0
  have hq := q.isLt
  have hk := kk.isLt
  obtain ⟨-, ⟨h0, h1⟩, -⟩ := block_indices t
  unfold at2
  rw [dif_pos ⟨by omega, by omega⟩]
  show iblk m c 1 t (ix2 q kk) = _
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t 0 * 1024 + 1 * q.val = 1024 * (t.val / 8 % 4) + q.val; rw [h0]; omega
  | ⟨1, _⟩ => show win0_1.index t 1 * 512 + 1 * kk.val = 512 * (t.val % 8) + kk.val; rw [h1]; omega

/-- Before the kernel starts the bias vector is laid out as one row of 4096. -/
theorem bias_row (c : Dev nD) :
    (V m c main_v0 : S1x4096.Idx → EReal) = shapeCast S1x4096 (bin m c) shapeCasts_S4096_S1x4096 := by
  dsimp only [V, hostOps0]
  after_results
  rfl

/-- The bias block at point t reads entries 1024·((t/8)%4) + q of the bias vector. -/
theorem bblk_apply (c : Dev nD) (t : Fin cfg0.N) (q : Fin 1024) :
    bblk m c t (ix2 (0 : Fin 1) q) = at1 (bin m c) (1024 * (t.val / 8 % 4) + q.val) := by
  have hN : t.val < 128 := lt_of_lt_of_eq t.isLt N_0
  have hq := q.isLt
  obtain ⟨-, -, ⟨h0, h1⟩⟩ := block_indices t
  have hb : 1024 * (t.val / 8 % 4) + q.val < 4096 := by omega
  unfold at1
  rw [dif_pos hb]
  show iblk m c 2 t (ix2 (0 : Fin 1) q) = _
  unfold iblk
  rw [View.read_apply]
  show V m c main_v0 _ = _
  rw [bias_row]
  refine shapeCast_apply _ _ _ (ix1 ⟨1024 * (t.val / 8 % 4) + q.val, hb⟩) ?_
  rw [Shape.rowMajor_val_one, Shape.rowMajor_val_two]
  show 1024 * (t.val / 8 % 4) + q.val = (win0_2.index t 0 * 1 + 1 * 0) * 4096 + (win0_2.index t 1 * 1024 + 1 * q.val)
  rw [h0, h1]
  omega

end Cert.KernelIdeal.Acc

end
-- ==== Proof.Fold.lean ====
/-
  The accumulator after every grid point, and the output tile at the last K-step of a tile.

  Within one output tile the eight K-steps are consecutive points 8u, 8u + 1, …, 8u + 7. Point n adds to the accumulator,
  at (p, q), the addend
      A_n[p, q] = Σ_{kk<512} x[1024·(n/32) + p, 512·(n%8) + kk] · w[1024·((n/8)%4) + q, 512·(n%8) + kk],
  and the first point of the run starts from zero. So after point t the accumulator is
      0 + Σ_{s ≤ t%8} A_{8·(t/8) + s},
  the run's fold unrolled at an entry. At the run's last point (t % 8 = 7) the output tile is that accumulator plus the
  bias row, which is the dense layer's entry at row 1024·(t/32) + p and column 1024·((t/8)%4) + q: the eight addends
  are the eight stretches of 512 columns of the whole contraction.
-/
import proofs.«152821_j16844861735163_1_alg».proof.Proof.StepAt
import proofs.«152821_j16844861735163_1_alg».proof.Proof.Blocks
import proofs.«152821_j16844861735163_1_alg».proof.Proof.Gen.KernelIdeal.Value

noncomputable section

open scoped BigOperators
open Idealize.ShloMosaic Idealize.ShloMosaic.TcCoe Idealize.SL.Sem Idealize.ShloMosaic.ValueIdx
open Cert.DenseSpec (at2 at1 dense denseAt)

namespace Cert.KernelIdeal.Acc

open Cert.KernelIdeal Cert.KernelIdeal.Gen

variable (m : (ℓ : Loc nD τ sig) → Buf (Elt Ideal) ℓ)

/-! ## What a point leaves in the accumulator, over what the point before left -/

/-- At the first K-step of a tile (n % 8 = 0) the accumulator is reset and stepped once. -/
theorem left_first (c : Dev nD) (n : ℕ) (hb : n < cfg0.N) (h0 : n % 8 = 0) (acc : Vec Ideal S1024x1024 .f32) :
    Value.scAt0_0 m c n hb acc = step (xblk m c ⟨n, hb⟩) (wblk m c ⟨n, hb⟩) zeros := by
  unfold Value.scAt0_0
  rw [dif_pos h0, dif_neg (by omega)]
  exact scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- At every later K-step it is stepped once from what the point before left. -/
theorem left_later (c : Dev nD) (n : ℕ) (hb : n < cfg0.N) (h0 : ¬n % 8 = 0) (acc : Vec Ideal S1024x1024 .f32) :
    Value.scAt0_0 m c n hb acc = step (xblk m c ⟨n, hb⟩) (wblk m c ⟨n, hb⟩) acc := by
  unfold Value.scAt0_0
  rw [dif_neg h0]
  by_cases h1 : n % 8 = 7
  · rw [dif_pos h1]
    exact scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h1]
    exact scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-! ## The addend of a point, and the accumulator as a sum of addends -/

/-- What point n adds at entry y of the accumulator: the products over the point's 512 columns of x and w. -/
def addend (c : Dev nD) (n : ℕ) (y : S1024x1024.Idx) : EReal :=
  ∑ kk : Fin 512, at2 (xin m c) (1024 * (n / 32) + (y 0).val) (512 * (n % 8) + kk.val)
    * at2 (win m c) (1024 * (n / 8 % 4) + (y 1).val) (512 * (n % 8) + kk.val)

/-- One K-step at point t adds that point's addend, entry by entry. -/
theorem step_adds (c : Dev nD) (t : Fin cfg0.N) (acc : Vec Ideal S1024x1024 .f32) (y : S1024x1024.Idx) :
    step (xblk m c t) (wblk m c t) acc y = acc y + addend m c t.val y := by
  obtain ⟨p, q, rfl⟩ : ∃ (p q : Fin 1024), y = ix2 p q := ⟨y 0, y 1, eq_ix2 y⟩
  rw [step_apply]
  refine congrArg (acc (ix2 p q) + ·) (Finset.sum_congr rfl fun kk _ => ?_)
  rw [xblk_apply, wblk_apply]

/-- After point t the accumulator is zero plus the addends of the points of its run up to t. -/
theorem accumulator_after (c : Dev nD) (t : Fin cfg0.N) (y : S1024x1024.Idx) :
    (outsAt0 m c t.val t.isLt).2 y = 0 + ∑ s ∈ Finset.range (t.val % 8 + 1), addend m c (8 * (t.val / 8) + s) y := by
  rw [Value.soutsAt0_0_eq m c t]
  exact Pipeline.accAt_add_apply
    (fun n h => Value.scAt0_0 m c n h (VS0_0.read (Elt Ideal) VS0_0.junk)) (Value.scAt0_0 m c)
    (fun _ => (0 : EReal)) (addend m c) (8 * (t.val / 8)) 7
    (fun h i => by
      show Value.scAt0_0 m c (8 * (t.val / 8)) h _ i = _
      rw [left_first m c _ h (by omega), step_adds m c ⟨_, h⟩, zeros_apply])
    (fun n h acc i hlt hle => by
      rw [left_later m c n h (by omega) acc]
      exact step_adds m c ⟨n, h⟩ acc i)
    (t.val % 8) (by omega) _ y

/-! ## The output tile at a tile's last K-step -/

/-- At the last K-step the output tile is the accumulator that point leaves, plus the bias row. -/
theorem tile_from_accumulator (c : Dev nD) (t : Fin cfg0.N) (h7 : t.val % 8 = 7) :
    (outsAt0 m c t.val t.isLt).1 = emit ((outsAt0 m c t.val t.isLt).2) (bblk m c t) := by
  have h0 : ¬t.val % 8 = 0 := by omega
  rw [outsAt0_C m c t h0 h7]
  dsimp only
  rw [scratch_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2]
  exact tile_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2

/-- The dense layer of the three argument arrays: what the result array is to hold. -/
abbrev result (c : Dev nD) : Vec Ideal S4096x4096 .f32 := dense (xin m c) (win m c) (bin m c)

/-- Entry (p, q) of the tile written at the last K-step t is the dense layer's entry at the array index i that the
    tile's (p, q) lands on: row 1024·(t/32) + p, column 1024·((t/8)%4) + q. -/
theorem tile_entry (c : Dev nD) (t : Fin cfg0.N) (h7 : t.val % 8 = 7) (p q : Fin 1024) (i : S4096x4096.Idx)
    (hi0 : (i 0).val = 1024 * (t.val / 32) + p.val) (hi1 : (i 1).val = 1024 * (t.val / 8 % 4) + q.val) :
    (outsAt0 m c t.val t.isLt).1 (ix2 p q) = result m c i := by
  have hN : t.val < 128 := lt_of_lt_of_eq t.isLt N_0
  obtain ⟨r, cc, rfl⟩ : ∃ (r cc : Fin 4096), i = ix2 r cc := ⟨i 0, i 1, eq_ix2 i⟩
  change r.val = _ at hi0
  change cc.val = _ at hi1
  rw [tile_from_accumulator m c t h7, emit_apply, accumulator_after m c t (ix2 p q), bblk_apply, h7]
  show _ = denseAt (xin m c) (win m c) (bin m c) r cc
  rw [Cert.DenseSpec.denseAt_eq_stretches, hi0, hi1]
  refine congrArg (· + at1 (bin m c) (1024 * (t.val / 8 % 4) + q.val)) (congrArg ((0 : EReal) + ·) ?_)
  refine Finset.sum_congr rfl fun s hs => ?_
  have hs8 : s < 8 := Finset.mem_range.mp hs
  unfold addend
  refine Finset.sum_congr rfl fun kk _ => ?_
  show at2 (xin m c) (1024 * ((8 * (t.val / 8) + s) / 32) + p.val) (512 * ((8 * (t.val / 8) + s) % 8) + kk.val)
      * at2 (win m c) (1024 * ((8 * (t.val / 8) + s) / 8 % 4) + q.val) (512 * ((8 * (t.val / 8) + s) % 8) + kk.val) = _
  rw [show (8 * (t.val / 8) + s) / 32 = t.val / 32 from by omega, show (8 * (t.val / 8) + s) % 8 = s from by omega,
    show (8 * (t.val / 8) + s) / 8 % 4 = t.val / 8 % 4 from by omega]

end Cert.KernelIdeal.Acc

end
-- ==== Proof.Final.lean ====
/-
  From tiles to the whole result array.

  The output is written back only at the last K-step of each tile, t % 8 = 7, and the tile written at point t sits at
  tile row t / 32 and tile column (t / 8) % 4 of the 4096 × 4096 result. By the accumulator's sum each such tile is the
  dense layer restricted to it; every index (r, c) of the result lies in the tile written at the point
  32·(r / 1024) + 8·(c / 1024) + 7; so the array ends holding the dense layer of the three arguments.
-/
import proofs.«152821_j16844861735163_1_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The tile of the result that point t = 32 i + 8 j + k addresses is (i, j). -/
theorem tile_indices : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- What a writing point writes back is its tile of the dense layer. -/
theorem written_back (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  obtain ⟨e0, e1⟩ := tile_indices t
  rw [Value.flushed3 m c t]
  funext y
  obtain ⟨p, q, rfl⟩ : ∃ (p q : Fin 1024), y = ix2 p q := ⟨y 0, y 1, eq_ix2 y⟩
  show (outsAt0 m c t.val t.isLt).1 (ix2 p q) = result m c (((cfg0.win 3).blk t).view.emb (ix2 p q))
  refine tile_entry m c t h7 p q _ ?_ ?_
  · show win0_3.index t 0 * 1024 + 1 * p.val = _
    rw [e0]; omega
  · show win0_3.index t 1 * 1024 + 1 * q.val = _
    rw [e1]; omega

/-- An index of the result is in point t's tile when each coordinate is in the tile's range on its axis. -/
theorem mem_tile (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result lies in the tile some writing point writes back. -/
theorem covered (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, ht⟩ : ∃ t : Fin cfg0.N, t.val = 32 * ((i 0).val / 1024) + 8 * ((i 1).val / 1024) + 7 :=
    ⟨⟨_, lt_of_lt_of_eq (show 32 * ((i 0).val / 1024) + 8 * ((i 1).val / 1024) + 7 < 128 by omega) N_0.symm⟩, rfl⟩
  obtain ⟨e0, e1⟩ := tile_indices t
  refine ⟨t, (flush0_3 t).mpr (by omega), ?_⟩
  rw [mem_tile]
  intro a
  match a with
  | ⟨0, _⟩ =>
    show win0_3.index t 0 * 1024 ≤ (i 0).val ∧ (i 0).val < win0_3.index t 0 * 1024 + 1024
    rw [e0]; omega
  | ⟨1, _⟩ =>
    show win0_3.index t 1 * 1024 ≤ (i 1).val ∧ (i 1).val < win0_3.index t 1 * 1024 + 1024
    rw [e1]; omega

/-- So after the run the result array holds the dense layer of the three argument arrays. -/
theorem result_array (c : Dev nD) : (dats m 0 c).arrAt 3 cfg0.N = result m c :=
  (dats m 0 c).arrAt_eq_of_cover 3 (result m c) (fun t hf => written_back m c t hf) covered

/-- The kernel's run with the result named: it terminates with the result array at the dense layer of its arguments
    and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.Acc

end
-- ==== Proof.RefDense.lean ====
/-
  The reference computes the dense layer.

  Its four host operations are the product x · wᵀ contracted over all 4096 columns, the bias vector laid out as a row,
  that row repeated on every row, and the sum of the two. Read at an index (r, c) that is
      Σ_k x[r, k] · w[c, k] + bias[c],
  the dense layer's entry as written, with no regrouping to do.
-/
import proofs.«152821_j16844861735163_1_alg».proof.Proof.DenseSpec
import proofs.«152821_j16844861735163_1_alg».proof.Proof.Gen.ReferenceIdeal.Read

noncomputable section

open scoped BigOperators
open Idealize.ShloMosaic Idealize.ShloMosaic.TcCoe Idealize.SL.Sem Idealize.ShloMosaic.ValueIdx
open Cert.DenseSpec (dense denseAt)

namespace Cert.ReferenceIdeal.RefValue

open Cert.ReferenceIdeal Cert.ReferenceIdeal.Read

/-- The product reads x at (r, k) … -/
theorem left_index (i : S4096x4096.Idx) (k : Fin 4096) : lidx_main_v0 i k = ix2 (i 0) k :=
  funext fun d => Fin.ext (by match d with | ⟨0, _⟩ => rfl | ⟨1, _⟩ => rfl)

/-- … and w at (c, k). -/
theorem right_index (i : S4096x4096.Idx) (k : Fin 4096) : ridx_main_v0 i k = ix2 (i 1) k :=
  funext fun d => Fin.ext (by match d with | ⟨0, _⟩ => rfl | ⟨1, _⟩ => rfl)

/-- The repeated bias row reads the bias vector at c. -/
theorem bias_index (i : S4096x4096.Idx) : idx_main_v1 (idx_main_v2 i) = ix1 (i 1) :=
  funext fun d => Fin.ext (by match d with | ⟨0, _⟩ => rfl)

/-- The reference's result, as a function of its three arguments over the extended reals, is the dense layer. -/
theorem reference_is_dense (x w : (⟨S4096x4096, .f32⟩ : BufTy).Contents (Elt Ideal)) (b : (⟨S4096, .f32⟩ : BufTy).Contents (Elt Ideal)) :
    val_main_v3 (F := Ideal) x w b = dense x w b := by
  funext i
  rw [val_main_v3_apply, val_main_v0_apply, val_main_v2_apply, val_main_v1_apply]
  simp only [left_index, right_index, bias_index]
  rfl

end Cert.ReferenceIdeal.RefValue

end
-- ==== Proof.lean ====
/-
  A dense layer y = x · wᵀ + b on 4096 × 4096 operands, tiled, against the same layer written as one contraction.

  The kernel computes y in sixteen 1024 × 1024 tiles. For each tile it walks the 4096 contracted columns in eight
  K-steps of 512: a scratch accumulator is zeroed at the first step, every step adds the product of a 1024 × 512 block
  of x with a 1024 × 512 block of w (narrowed to bf16 first, which changes nothing over the extended reals), and the last
  step writes accumulator + bias row to the tile. The reference is one contraction over all 4096 columns plus the bias
  repeated on every row.

  Over the extended reals both are  y[r, c] = Σ_k x[r, k] · w[c, k] + b[c]:  the kernel's eight partial sums are the
  eight stretches of 512 columns of the reference's one sum, and regrouping a finite sum needs only that addition is
  commutative and associative, so the finiteness of the inputs is never used.

  The modules: DenseSpec (the function and the regrouping law), Pieces and StepAt (what one grid point leaves behind,
  as values and entry by entry), Blocks (the blocks a point reads, as entries of the whole arrays), Fold (the
  accumulator after every point as a sum of addends, and the tile written at a tile's last step), Final (tiles to the
  whole array, and the kernel's run with its result named), RefDense (the reference is the dense layer). Read over the
  extended reals the kernel is its own text, operation for operation, so the idealization claim has no conjunct.
-/
import proofs.«152821_j16844861735163_1_alg».proof.Defs
import proofs.«152821_j16844861735163_1_alg».proof.Proof.Gen.Kernel
import proofs.«152821_j16844861735163_1_alg».proof.Proof.Gen.Kernel.Skeleton
import proofs.«152821_j16844861735163_1_alg».proof.Proof.Gen.Kernel.Launch
import proofs.«152821_j16844861735163_1_alg».proof.Proof.Gen.Kernel.Points
import proofs.«152821_j16844861735163_1_alg».proof.Proof.Gen.Kernel.Frame
import proofs.«152821_j16844861735163_1_alg».proof.Proof.Gen.KernelIdeal
import proofs.«152821_j16844861735163_1_alg».proof.Proof.Gen.KernelIdeal.Skeleton
import proofs.«152821_j16844861735163_1_alg».proof.Proof.Gen.KernelIdeal.Launch
import proofs.«152821_j16844861735163_1_alg».proof.Proof.Gen.KernelIdeal.Points
import proofs.«152821_j16844861735163_1_alg».proof.Proof.Gen.KernelIdeal.Frame
import proofs.«152821_j16844861735163_1_alg».proof.Proof.Gen.ReferenceIdeal
import proofs.«152821_j16844861735163_1_alg».proof.Proof.Gen.Pre_finite_inputs
import proofs.«152821_j16844861735163_1_alg».proof.Proof.Gen.KernelIdeal.Value
import proofs.«152821_j16844861735163_1_alg».proof.Proof.Gen.ReferenceIdeal.Run
import proofs.«152821_j16844861735163_1_alg».proof.Proof.Gen.ReferenceIdeal.Read
import proofs.«152821_j16844861735163_1_alg».proof.Proof.Final
import proofs.«152821_j16844861735163_1_alg».proof.Proof.RefDense
import Idealize.ShloMosaic.Adequacy
import Idealize.ShloMosaic.Init

noncomputable section

namespace Cert.Proof

open Idealize.ShloMosaic Idealize.SL.Sem Cert.Kernel

/-- The kernel as printed runs to the end and leaves its three arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is four host operations; its run ends with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- The kernel's reading over the extended reals changes no operation of it: nothing to state. -/
theorem preserves : Cert.preserves_Kernel_KernelIdeal := trivial

/-- From arguments that agree, the kernel's result array ends at the dense layer of its arguments (the accumulated
    tiles) and the reference's at the dense layer of its own (one contraction plus the repeated bias): the same array. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_is_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
